-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x512 .f32) (main_arg1 : FVec F S16384x512 .f32) (main_arg2 : FVec F S16384x512 .f32) (main_arg3 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Kernel.lean ====
abbrev S16384x512 : Shape := ⟨2, ![16384, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1x1, .f32⟩
  | .hbm, ⟨5, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1, .f32⟩
  | .local _ .vmem, ⟨9, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_19 : BitVec 32 := 0#32
  let v35 : BitVec 1 := Scalar.cmpi .ne v34 c0_i32_19
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S_ : Shape := ⟨0, ![]⟩
abbrev S16384 : Shape := ⟨1, ![16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  reducesTo_S16384x512_S16384_d1 : S16384x512.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.KlSum.lean ====
/-
  The arithmetic the kernel and the reference share, over the extended reals, with no program in sight.

  Each entry (R, d) of the four [16384, 512] inputs contributes one summand
      term = (ql - pl) + exp (-(ql - pl)) + (pm - qm)² · exp (-ql) - 1 .
  The reference halves every row's sum, adds the 16384 halved rows and divides by 16384.
  The kernel walks 16 tiles of 1024 rows: it adds a tile's rows, halves that tile sum, accumulates the
  halved tile sums, and at the end multiplies by 2⁻¹⁴.
  Two facts join them: a NONNEGATIVE REAL factor distributes over a sum of extended reals whatever the
  summands are (infinite ones included), and the rows split as tile × row-in-tile, R = 1024 t + r.
  Dividing by 16384 is multiplying by the real 1/16384, which is what the word 0x38800000 denotes.
-/
import Idealize.ShloMosaic.PureOps.Ideal
import Idealize.ShloMosaic.Lib.ValueIdx

noncomputable section

namespace Cert.KlSum

open Idealize.ShloMosaic

/-! ## The three literals that are evaluated -/

/-- The word `0x3F000000` denotes one half. -/
theorem ofBits_half : Ideal.ofBits .f32 0x3F000000#32 = ((1 / 2 : ℝ) : EReal) := by
  simp [Ideal.ofBits, Ideal.ieee, -EReal.coe_mul]; norm_num

/-- The word `0x38800000` denotes 2⁻¹⁴ = 1/16384. -/
theorem ofBits_rcp : Ideal.ofBits .f32 0x38800000#32 = ((1 / 16384 : ℝ) : EReal) := by
  simp [Ideal.ofBits, Ideal.ieee, -EReal.coe_mul]; norm_num

/-- The word `0x46800000` denotes 16384. -/
theorem ofBits_rows : Ideal.ofBits .f32 0x46800000#32 = ((16384 : ℝ) : EReal) := by
  simp [Ideal.ofBits, Ideal.ieee, -EReal.coe_mul]; norm_num

/-- The zero word denotes zero. -/
theorem ofBits_zero : Ideal.ofBits .f32 0x00000000#32 = 0 := by
  simp [Ideal.ofBits, Ideal.ieee]

/-! ## One summand -/

/-- The summand of entry (R, d): the gap of the log-variances, the ratio of the variances, the squared gap of the
    means over the second variance, less one. The literal one stays a word: both programs spell the same one. -/
def term (pm pl qm ql : EReal) : EReal :=
  ((ql - pl) + Ideal.exp (-(ql - pl)) + ((pm - qm) * (pm - qm)) * Ideal.exp (-ql)) - Ideal.ofBits .f32 0x3F800000#32

/-- The summand, spelled out. -/
theorem term_def (pm pl qm ql : EReal) : term pm pl qm ql
    = ((ql - pl) + Ideal.exp (-(ql - pl)) + ((pm - qm) * (pm - qm)) * Ideal.exp (-ql)) - Ideal.ofBits .f32 0x3F800000#32 := rfl

/-! ## A nonnegative real factor and a finite sum -/

/-- A nonnegative real factor goes through a finite sum of extended reals, whatever the summands. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-! ## Rows as tile × row-in-tile -/

/-- Row `r` of tile `t`. -/
def row (t : Fin 16) (r : Fin 1024) : Fin 16384 :=
  ⟨1024 * t.val + r.val, by have := t.isLt; have := r.isLt; omega⟩

/-- A sum over the 16384 rows is the sum over the 16 tiles of the sums over each tile's 1024 rows. -/
theorem sum_rows (g : Fin 16384 → EReal) : ∑ R : Fin 16384, g R = ∑ t : Fin 16, ∑ r : Fin 1024, g (row t r) := by
  rw [← Fintype.sum_prod_type' (f := fun t r => g (row t r))]
  refine (Equiv.sum_comp (finProdFinEquiv (m := 16) (n := 1024)) g).symm.trans (Finset.sum_congr rfl fun x _ => ?_)
  refine congrArg g (Fin.ext ?_)
  show x.2.val + 1024 * x.1.val = 1024 * x.1.val + x.2.val
  omega

/-! ## A rank-1 index set is its coordinate range -/

/-- A rank-1 index is its one coordinate … -/
def idxEquiv1 {n : Nat} : (⟨1, ![n]⟩ : Shape).Idx ≃ Fin n where
  toFun i := i 0
  invFun a := ValueIdx.ix1 a
  left_inv i := (ValueIdx.eq_ix1 i).symm
  right_inv _ := rfl

/-- … so a sum over the index set is the sum over the coordinate. -/
theorem sum_idx1 {n : Nat} (f : (⟨1, ![n]⟩ : Shape).Idx → EReal) : ∑ i, f i = ∑ a : Fin n, f (ValueIdx.ix1 a) :=
  (Equiv.sum_comp (idxEquiv1 (n := n)).symm f).symm

/-! ## The two arrangements are one number -/

/-- The reference's arrangement: halve each row's sum, add the rows, divide by their number. -/
def mean (f : Fin 16384 → Fin 512 → EReal) : EReal :=
  Ideal.div (∑ R : Fin 16384, ((1 / 2 : ℝ) : EReal) * ∑ d : Fin 512, f R d) ((16384 : ℝ) : EReal)

/-- The reference's arrangement, spelled out. -/
theorem mean_def (f : Fin 16384 → Fin 512 → EReal) :
    mean f = Ideal.div (∑ R : Fin 16384, ((1 / 2 : ℝ) : EReal) * ∑ d : Fin 512, f R d) ((16384 : ℝ) : EReal) := rfl

/-- The kernel's arrangement — halve each tile's sum, add the tiles, scale by 2⁻¹⁴ — is the reference's. -/
theorem tiles_eq_mean (f : Fin 16384 → Fin 512 → EReal) :
    (∑ t : Fin 16, ((1 / 2 : ℝ) : EReal) * ∑ r : Fin 1024, ∑ d : Fin 512, f (row t r) d) * ((1 / 16384 : ℝ) : EReal)
      = mean f := by
  rw [mean_def, Ideal.div_coe (by norm_num : (16384 : ℝ) ≠ 0), sum_rows]
  refine congrArg (· * _) (Finset.sum_congr rfl fun t _ => ?_)
  exact coe_mul_sum _ (by norm_num) _

end Cert.KlSum

end
-- ==== Proof.RefValue.lean ====
/-
  What the reference computes, read at the ideal instance: every entry's summand (`KlSum.term`), each row's sum
  halved, the halved rows added, the total divided by the number of rows — `KlSum.mean` of the summands.
  The elementwise chain is read entry by entry; each of the two sums starts from the zero word, which adds nothing.
-/
import proofs.«148379_j11879879543853_1_alg».proof.Defs
import proofs.«148379_j11879879543853_1_alg».proof.Proof.Gen.ReferenceIdeal.Read
import proofs.«148379_j11879879543853_1_alg».proof.Proof.KlSum
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- At one entry the reference's elementwise chain is the summand of that entry: its `negate` is the extended reals'
    negation and its `exponential` their exponential. -/
theorem entry_eq (x0 x1 x2 x3 : FVec Ideal S16384x512 .f32) (i : S16384x512.Idx) :
    val_main_v11 (F := Ideal) x0 x1 x2 x3 i = Cert.KlSum.term (x0 i) (x1 i) (x2 i) (x3 i) := by
  simp only [val_main_v11_apply, val_main_v9_apply, val_main_v3_apply, val_main_v8_apply, val_main_v2_apply,
    val_main_v1_apply, val_main_v0_apply, val_main_v5_apply, val_main_v4_apply, val_main_v7_apply, val_main_v6_apply,
    val_main_v10_apply, val_main_cst_apply]
  simp only [Ideal.subf_def, Ideal.addf_def, Ideal.mulf_def, Ideal.hostUnary_exp_def, Ideal.hostNegf_def,
    Ideal.negf_def, Ideal.ofBits_def]
  rfl

/-- The entry the row sum of row `R` reads at lane `d` is (R, d). -/
theorem lane_idx (R : Fin 16384) (d : Fin 512) : idx_main_v12 (ix1 R) d = ix2 R d :=
  funext fun a => by match a with | ⟨0, _⟩ => rfl | ⟨1, _⟩ => rfl

/-- Row `R` of the halved row sums: one half of the sum of the row's summands (the sum starts from zero). -/
theorem row_eq (x0 x1 x2 x3 : FVec Ideal S16384x512 .f32) (R : Fin 16384) :
    val_main_v14 (F := Ideal) x0 x1 x2 x3 (ix1 R)
      = ((1 / 2 : ℝ) : EReal) * ∑ d : Fin 512,
          Cert.KlSum.term (x0 (ix2 R d)) (x1 (ix2 R d)) (x2 (ix2 R d)) (x3 (ix2 R d)) := by
  rw [val_main_v14_apply, val_main_v13_apply, val_main_cst_1_apply, val_main_v12_apply, val_main_cst_0_apply]
  simp only [Ideal.mulf_def, Ideal.ofBits_def, lane_idx, entry_eq, Cert.KlSum.ofBits_zero, zero_add,
    Cert.KlSum.ofBits_half]

/-- The reference's result is the mean of the halved row sums of the summands. -/
theorem result_eq (x0 x1 x2 x3 : FVec Ideal S16384x512 .f32) :
    val_main_v16 (F := Ideal) x0 x1 x2 x3
      = fun _ => Cert.KlSum.mean fun R d =>
          Cert.KlSum.term (x0 (ix2 R d)) (x1 (ix2 R d)) (x2 (ix2 R d)) (x3 (ix2 R d)) := by
  funext i
  rw [Cert.KlSum.mean_def, val_main_v16_apply, val_main_v15_apply, val_main_cst_3_apply, val_main_cst_2_apply]
  simp only [Ideal.hostDivf_def, Ideal.ofBits_def, Cert.KlSum.ofBits_zero, zero_add, Cert.KlSum.ofBits_rows,
    Cert.KlSum.sum_idx1, row_eq]

end Cert.ReferenceIdeal.RefValue

end
-- ==== Proof.KlPieces.lean ====
/-
  What one grid point leaves behind, case by case, as the body's own arithmetic.

  The body keeps a one-entry accumulator in scratch. At every point it loads the four input blocks — the means' block
  `x0`, the first log-variances' `x1`, the second means' `x2`, the second log-variances' `x3` — and stores
  "accumulator + ½ · (sum of the block's summands)" back into the accumulator (the payload `k0_pay3`, whose loads are, in
  order, x3, x1, x0, x2, x3 and the accumulator). At the first point it first stores zero (`k0_pay2`) and reads that
  back; at the last point it then stores the accumulator scaled by 2⁻¹⁴ (`k0_pay1`) into the output block.
  Each lemma reads the stores a case's run found back as those payloads of the blocks: every store covers its whole
  one-entry buffer, and every load reads a whole buffer.
-/
import proofs.«148379_j11879879543853_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

/-- Every access of the body starts at the origin of its buffer. -/
theorem hz : (![0, 0] : Fin 2 → Nat) = fun _ => 0 := funext fun a => by fin_cases a <;> rfl

/-- A middle point (neither first nor last): the accumulator `xs` becomes the accumulating payload of the blocks. -/
theorem acc_B (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 x2 x3 : Vec F S1024x512 .f32) (xs : Vec F S1x1 .f32) :
    sout0_B_0 c i a1 h1 a2 h2 a3 h3 a4 h4 a5 h5 a6 h6 hc0 hc1 x0 x1 x2 x3 xs = k0_pay3 x3 x1 x0 x2 x3 xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  sl_unfold_words
  rw [View.canon_unit_zero hz]
  simp only [View.readAt_eq_ld, h1.read_unread, h2.read_unread, h3.read_unread, h4.read_unread, h6.read_unread,
    View.ld_unit_zero (S := S1024x512) hz, View.ld_unit_zero (S := S1x1) hz]

/-- The first point: zero is stored and read back, so the accumulator becomes the payload over the zero block. -/
theorem acc_A (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 x2 x3 : Vec F S1024x512 .f32) :
    sout0_A_0 c i a1 h1 a2 h2 a3 h3 a4 h4 a5 h5 a6 h6 hc0 hc1 x0 x1 x2 x3 = k0_pay3 x3 x1 x0 x2 x3 (k0_pay2 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h6.read_unread,
    View.ld_unit_zero (S := S1024x512) hz, View.ld_unit_zero (S := S1x1) hz]

/-- The last point, the accumulator: as at a middle point. -/
theorem acc_C (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S1024x512 .f32) (xs : Vec F S1x1 .f32) :
    sout0_C_0 c i a1 h1 a2 h2 a3 h3 a4 h4 a5 h5 a6 h6 hc0 hc1 x0 x1 x2 x3 xs = k0_pay3 x3 x1 x0 x2 x3 xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread,
    View.ld_unit_zero (S := S1024x512) hz, View.ld_unit_zero (S := S1x1) hz]

/-- The last point, the output block: the final accumulator, read back, scaled by the closing payload. -/
theorem out_C (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S1024x512 .f32) (xs : Vec F S1x1 .f32) :
    out0_C_4 c i a1 h1 a2 h2 a3 h3 a4 h4 a5 h5 a6 h6 hc0 hc1 x0 x1 x2 x3 xs = k0_pay1 (k0_pay3 x3 x1 x0 x2 x3 xs) := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread,
    View.ld_unit_zero (S := S1024x512) hz, View.ld_unit_zero (S := S1x1) hz, View.readCov_unit_zero (S := S1x1) _ hz]

end Cert.KernelIdeal.Pieces

end
-- ==== Proof.KlPayload.lean ====
/-
  The body's arithmetic at the ideal instance, read at its one entry.

  The accumulating payload adds to the accumulator one half of the block's total: the lane sum of every row (512 lanes),
  the rows' sums stood up as a column, the column's sum (1024 rows), viewed as a one-entry block. Each of those is read at
  an index: a one-axis sum is the sum over that axis's coordinate, and a reshaping keeps the row-major position. The
  summand under the sums is `KlSum.term` of the four blocks' entries: the body's "zero minus x" is the negation.
  The closing payload multiplies the accumulator by the word that denotes 2⁻¹⁴; the reset payload is the zero word.
-/
import proofs.«148379_j11879879543853_1_alg».proof.Proof.Gen.KernelIdeal.Skeleton
import proofs.«148379_j11879879543853_1_alg».proof.Proof.KlSum
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- A one-entry block has one index. -/
theorem eq_origin (j : S1x1.Idx) : j = ix2 (0 : Fin 1) (0 : Fin 1) :=
  funext fun a => by
    match a with
    | ⟨0, _⟩ => exact Fin.ext (by have := idx2_lt0 j; show (j 0).val = 0; omega)
    | ⟨1, _⟩ => exact Fin.ext (by have := idx2_lt1 j; show (j 1).val = 0; omega)

/-- The exponential of a block, at an entry. -/
theorem exp_apply {s : Shape} (x : FVec Ideal s .f32) (i : s.Idx) : exp x i = Ideal.exp (x i) := rfl

/-- The lane sum of row `r`: the sum over the 512 lanes of the row's entries. -/
theorem lane_sum (v : FVec Ideal S1024x512 .f32) (r : Fin 1024) :
    multiReduction (F := Ideal) .add [1] S1024 v 0x00000000#32 reduces_S1024x512_S1024 (.inl rfl) rfl (ix1 r)
      = ∑ d : Fin 512, v (ix2 r d) :=
  (Ideal.multiReduction_add_single v _ reduces_S1024x512_S1024 _ _ (ix1 r)).trans
    (Finset.sum_congr rfl fun d _ => congrArg v (funext fun a => by
      match a with
      | ⟨0, _⟩ => exact Fin.ext rfl
      | ⟨1, _⟩ => exact Fin.ext rfl))

/-- The row sums stood up as a column: entry (r, 0) of the column is entry r of the row sums. -/
theorem column_apply (w : FVec Ideal S1024 .f32) (r : Fin 1024) :
    shapeCast S1024x1 w shapeCasts_S1024_S1024x1 (ix2 r (0 : Fin 1)) = w (ix1 r) :=
  shapeCast_apply w shapeCasts_S1024_S1024x1 _ _ (by
    rw [Shape.rowMajor_val_one, Shape.rowMajor_val_two]
    show r.val = r.val * 1 + 0
    omega)

/-- The column's sum: the sum over the 1024 rows of the column's entries. -/
theorem column_sum (u : FVec Ideal S1024x1 .f32) :
    multiReduction (F := Ideal) .add [0] S1 u 0x00000000#32 reduces_S1024x1_S1 (.inl rfl) rfl (ix1 (0 : Fin 1))
      = ∑ r : Fin 1024, u (ix2 r (0 : Fin 1)) :=
  (Ideal.multiReduction_add_single u _ reduces_S1024x1_S1 _ _ (ix1 (0 : Fin 1))).trans
    (Finset.sum_congr rfl fun r _ => congrArg u (funext fun a => by
      match a with
      | ⟨0, _⟩ => exact Fin.ext rfl
      | ⟨1, _⟩ => exact Fin.ext rfl))

/-- The one-entry vector viewed as a one-entry block. -/
theorem block_apply (z : FVec Ideal S1 .f32) :
    shapeCast S1x1 z shapeCasts_S1_S1x1 (ix2 (0 : Fin 1) (0 : Fin 1)) = z (ix1 (0 : Fin 1)) :=
  shapeCast_apply z shapeCasts_S1_S1x1 _ _ (by
    rw [Shape.rowMajor_val_one, Shape.rowMajor_val_two]
    show (0 : Nat) = 0 * 1 + 0
    omega)

/-- A scalar word at the ideal instance is the extended real it denotes. -/
theorem scalar_ofBits (w : BitVec 32) : Scalar.ofBits (F := Ideal) .f32 w = Ideal.ofBits .f32 w := rfl

/-- The block of summands, as the body computes it from the four blocks: the second log-variances `q`, the first `p`,
    the first means `a`, the second means `b`. -/
def summands (q p a b : FVec Ideal S1024x512 .f32) : FVec Ideal S1024x512 .f32 :=
  subf (addf (addf (subf q p) (exp (subf (broadcast S1024x512 (Scalar.ofBits .f32 0x00000000#32)) (subf q p))))
    (mulf (mulf (subf a b) (subf a b)) (exp (subf (broadcast S1024x512 (Scalar.ofBits .f32 0x00000000#32)) q))))
    (broadcast S1024x512 (Scalar.ofBits .f32 0x3F800000#32))

/-- At entry (r, d) it is the summand of the four blocks' entries: the body's "zero minus x" is the negation. -/
theorem summands_apply (q p a b : FVec Ideal S1024x512 .f32) (r : Fin 1024) (d : Fin 512) :
    summands q p a b (ix2 r d)
      = Cert.KlSum.term (a (ix2 r d)) (p (ix2 r d)) (b (ix2 r d)) (q (ix2 r d)) := by
  unfold summands
  simp only [subf_apply, addf_apply, mulf_apply, exp_apply, broadcast_apply, scalar_ofBits, Cert.KlSum.ofBits_zero,
    zero_sub, Cert.KlSum.term_def]

/-- The accumulating payload at its entry: the accumulator plus one half of the sum, over the block's rows and lanes, of
    the summands. Its loads are, in order: the second log-variances `q`, the first `p`, the first means `a`, the
    second means `b`, `q` again, and the accumulator. -/
theorem pay3_apply (q p a b : FVec Ideal S1024x512 .f32) (acc : FVec Ideal S1x1 .f32) :
    k0_pay3 (F := Ideal) q p a b q acc (ix2 (0 : Fin 1) (0 : Fin 1))
      = acc (ix2 (0 : Fin 1) (0 : Fin 1)) + ((1 / 2 : ℝ) : EReal) * ∑ r : Fin 1024, ∑ d : Fin 512,
          Cert.KlSum.term (a (ix2 r d)) (p (ix2 r d)) (b (ix2 r d)) (q (ix2 r d)) := by
  unfold k0_pay3
  dsimp only
  rw [shapeCast_self, addf_apply, mulf_apply, broadcast_apply, block_apply, column_sum]
  show acc (ix2 (0 : Fin 1) (0 : Fin 1)) + Scalar.ofBits (F := Ideal) .f32 0x3F000000#32 * ∑ r : Fin 1024,
      shapeCast S1024x1 (multiReduction (F := Ideal) .add [1] S1024 (summands q p a b) 0x00000000#32
        reduces_S1024x512_S1024 (.inl rfl) rfl) shapeCasts_S1024_S1024x1 (ix2 r (0 : Fin 1)) = _
  simp only [column_apply, fun r => lane_sum (summands q p a b) r, summands_apply, scalar_ofBits,
    Cert.KlSum.ofBits_half]

/-- The closing payload at its entry: the accumulator times 1/16384. -/
theorem pay1_apply (v : FVec Ideal S1x1 .f32) (j : S1x1.Idx) :
    k0_pay1 (F := Ideal) v j = v j * ((1 / 16384 : ℝ) : EReal) := by
  unfold k0_pay1
  rw [mulf_apply, broadcast_apply, scalar_ofBits, Cert.KlSum.ofBits_rcp]

/-- The reset payload at its entry: zero. -/
theorem pay2_apply (j : S1x1.Idx) : k0_pay2 (F := Ideal) j = 0 := by
  unfold k0_pay2
  rw [shapeCast_self, broadcast_apply, scalar_ofBits, Cert.KlSum.ofBits_zero]

end Cert.KernelIdeal.Payload

end
-- ==== Proof.KlChain.lean ====
/-
  The accumulator across the grid, at the ideal instance.

  Point `t` of the 16 adds to the one-entry accumulator one half of tile `t`'s total of summands; the first point
  starts from the zero it has just stored. So after point `n` the accumulator holds the sum over the points up to `n`
  of the halved tile totals — by induction on the point, the case (first, middle, last) decided by the point's number.
  The last point then leaves that sum, scaled by 1/16384, in the output block.
-/
import proofs.«148379_j11879879543853_1_alg».proof.Proof.KlPieces
import proofs.«148379_j11879879543853_1_alg».proof.Proof.KlPayload

noncomputable section

namespace Cert.KernelIdeal.Chain

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The four input blocks at point `t`: the first means', the first log-variances', the second means', the second
    log-variances'. -/
abbrev pmBlk (c : Dev nD) (t : Fin cfg0.N) : FVec Ideal S1024x512 .f32 := iblk m c 0 t
abbrev plBlk (c : Dev nD) (t : Fin cfg0.N) : FVec Ideal S1024x512 .f32 := iblk m c 1 t
abbrev qmBlk (c : Dev nD) (t : Fin cfg0.N) : FVec Ideal S1024x512 .f32 := iblk m c 2 t
abbrev qlBlk (c : Dev nD) (t : Fin cfg0.N) : FVec Ideal S1024x512 .f32 := iblk m c 3 t

/-- Tile `t`'s total: the sum of its 1024 × 512 summands. -/
def tileSum (c : Dev nD) (t : Fin cfg0.N) : EReal :=
  ∑ r : Fin 1024, ∑ d : Fin 512,
    Cert.KlSum.term (pmBlk m c t (ix2 r d)) (plBlk m c t (ix2 r d)) (qmBlk m c t (ix2 r d)) (qlBlk m c t (ix2 r d))

/-- One point's update of an accumulator `xs`: it gains one half of the tile's total. -/
theorem step (c : Dev nD) (t : Fin cfg0.N) (xs : FVec Ideal S1x1 .f32) :
    k0_pay3 (F := Ideal) (qlBlk m c t) (plBlk m c t) (pmBlk m c t) (qmBlk m c t) (qlBlk m c t) xs
        (ix2 (0 : Fin 1) (0 : Fin 1))
      = xs (ix2 (0 : Fin 1) (0 : Fin 1)) + ((1 / 2 : ℝ) : EReal) * tileSum m c t :=
  Cert.KernelIdeal.Payload.pay3_apply (qlBlk m c t) (plBlk m c t) (pmBlk m c t) (qmBlk m c t) xs

/-- The halved tile totals of the points up to `n`, added. -/
def running (c : Dev nD) (n : ℕ) (h : n < cfg0.N) : EReal :=
  ∑ i : Fin (n + 1), ((1 / 2 : ℝ) : EReal) * tileSum m c ⟨i.val, lt_of_lt_of_le i.isLt h⟩

/-- One more point: the sum up to `n + 1` is the sum up to `n` plus point `n + 1`'s halved tile total. -/
theorem running_succ (c : Dev nD) (n : ℕ) (h : n + 1 < cfg0.N) :
    running m c (n + 1) h
      = running m c n (Nat.lt_of_succ_lt h) + ((1 / 2 : ℝ) : EReal) * tileSum m c ⟨n + 1, h⟩ :=
  Fin.sum_univ_castSucc _

/-- At the first point the sum is that point's halved tile total. -/
theorem running_zero (c : Dev nD) (h : 0 < cfg0.N) :
    running m c 0 h = ((1 / 2 : ℝ) : EReal) * tileSum m c ⟨0, h⟩ :=
  Fin.sum_univ_one _

/-- After point `n` the accumulator holds the halved tile totals of the points up to `n`, added. -/
theorem scratch_eq (c : Dev nD) : ∀ (n : ℕ) (h : n < cfg0.N), (outsAt0 m c n h).2 = fun _ => running m c n h
  | 0, h => by
    show (outsAt0 m c (⟨0, h⟩ : Fin cfg0.N).val (⟨0, h⟩ : Fin cfg0.N).isLt).2 = _
    rw [outsAt0_A m c ⟨0, h⟩ rfl (show ¬(0 % 16 = 15) by decide)]
    dsimp only
    refine (Cert.KernelIdeal.Pieces.acc_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (pmBlk m c ⟨0, h⟩) (plBlk m c ⟨0, h⟩) (qmBlk m c ⟨0, h⟩) (qlBlk m c ⟨0, h⟩)).trans ?_
    funext j
    obtain rfl : j = ix2 (0 : Fin 1) (0 : Fin 1) := Cert.KernelIdeal.Payload.eq_origin j
    rw [step, Cert.KernelIdeal.Payload.pay2_apply, zero_add, running_zero]
  | n + 1, h => by
    have hN : cfg0.N = 16 := N_0
    have ih := scratch_eq c n (Nat.lt_of_succ_lt h)
    have h0 : ¬(⟨n + 1, h⟩ : Fin cfg0.N).val % 16 = 0 := by dsimp only; omega
    have hprev : (outsAt0 m c ((⟨n + 1, h⟩ : Fin cfg0.N).val - 1) (Nat.lt_of_le_of_lt (Nat.sub_le _ _) (⟨n + 1, h⟩ : Fin cfg0.N).isLt)).2
        (ix2 (0 : Fin 1) (0 : Fin 1)) = running m c n (Nat.lt_of_succ_lt h) := congrFun ih _
    show (outsAt0 m c (⟨n + 1, h⟩ : Fin cfg0.N).val (⟨n + 1, h⟩ : Fin cfg0.N).isLt).2 = _
    by_cases h1 : (⟨n + 1, h⟩ : Fin cfg0.N).val % 16 = 15
    · rw [outsAt0_C m c ⟨n + 1, h⟩ h0 h1]
      dsimp only
      refine (Cert.KernelIdeal.Pieces.acc_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (pmBlk m c ⟨n + 1, h⟩) (plBlk m c ⟨n + 1, h⟩) (qmBlk m c ⟨n + 1, h⟩) (qlBlk m c ⟨n + 1, h⟩) _).trans ?_
      funext j
      obtain rfl : j = ix2 (0 : Fin 1) (0 : Fin 1) := Cert.KernelIdeal.Payload.eq_origin j
      rw [step, hprev, running_succ]
    · rw [outsAt0_B m c ⟨n + 1, h⟩ h0 h1]
      dsimp only
      refine (Cert.KernelIdeal.Pieces.acc_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (pmBlk m c ⟨n + 1, h⟩) (plBlk m c ⟨n + 1, h⟩) (qmBlk m c ⟨n + 1, h⟩) (qlBlk m c ⟨n + 1, h⟩) _).trans ?_
      funext j
      obtain rfl : j = ix2 (0 : Fin 1) (0 : Fin 1) := Cert.KernelIdeal.Payload.eq_origin j
      rw [step, hprev, running_succ]

/-- The last point leaves in the output block the whole sum scaled by 1/16384. -/
theorem out_last (c : Dev nD) (h : 15 < cfg0.N) :
    (outsAt0 m c 15 h).1 = fun _ => running m c 15 h * ((1 / 16384 : ℝ) : EReal) := by
  have hprev : (outsAt0 m c ((⟨15, h⟩ : Fin cfg0.N).val - 1) (Nat.lt_of_le_of_lt (Nat.sub_le _ _) (⟨15, h⟩ : Fin cfg0.N).isLt)).2
      (ix2 (0 : Fin 1) (0 : Fin 1)) = running m c 14 (Nat.lt_of_succ_lt h) := congrFun (scratch_eq m c 14 (Nat.lt_of_succ_lt h)) _
  show (outsAt0 m c (⟨15, h⟩ : Fin cfg0.N).val (⟨15, h⟩ : Fin cfg0.N).isLt).1 = _
  rw [outsAt0_C m c ⟨15, h⟩ (show ¬(15 % 16 = 0) by decide) rfl]
  dsimp only
  refine (Cert.KernelIdeal.Pieces.out_C (F := Ideal) c (grid0.coords ⟨15, h⟩) (ms0_0 ⟨15, h⟩) (hs0_0 ⟨15, h⟩) (ms0_1 ⟨15, h⟩) (hs0_1 ⟨15, h⟩) (ms0_2 ⟨15, h⟩) (hs0_2 ⟨15, h⟩) (ms0_3 ⟨15, h⟩) (hs0_3 ⟨15, h⟩) (ms0_4 ⟨15, h⟩) (hs0_4 ⟨15, h⟩) scM0_0 (Memref.isWhole_whole _) _ _ (pmBlk m c ⟨15, h⟩) (plBlk m c ⟨15, h⟩) (qmBlk m c ⟨15, h⟩) (qlBlk m c ⟨15, h⟩) _).trans ?_
  funext j
  obtain rfl : j = ix2 (0 : Fin 1) (0 : Fin 1) := Cert.KernelIdeal.Payload.eq_origin j
  rw [Cert.KernelIdeal.Payload.pay1_apply, step, hprev]
  exact congrArg (· * ((1 / 16384 : ℝ) : EReal)) (running_succ m c 14 h).symm

end Cert.KernelIdeal.Chain

end
-- ==== Proof.KlRun.lean ====
/-
  The kernel's run, read at the ideal instance: its scalar result is the mean of the halved row sums of the summands.

  Point `t`'s four input blocks are rows 1024 t … 1024 t + 1023 of the four argument arrays, all 512 lanes; so a tile's
  total is the total of those rows' summands, and the sum the last point leaves, scaled by 1/16384, is `KlSum.mean` of the
  arrays' summands (`KlSum.tiles_eq_mean`). The output array has one entry and one block, written back once, after the
  last point: it ends holding that number. The line after the region views the one-entry array as a scalar.
-/
import proofs.«148379_j11879879543853_1_alg».proof.Proof.KlChain
import Idealize.ShloMosaic.Lib.Pipeline.Value
import Idealize.ShloMosaic.Lib.StableHlo.Run

noncomputable section

namespace Cert.KernelIdeal.KlRun

open Cert.KernelIdeal Cert.KernelIdeal.Gen Cert.KernelIdeal.Chain
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four argument arrays on core `c`: the first means, the first log-variances, the second means, the second
    log-variances. -/
abbrev pmArr (c : Dev nD) : FVec Ideal S16384x512 .f32 := m ((c : Thread nD τ).loc main_arg0)
abbrev plArr (c : Dev nD) : FVec Ideal S16384x512 .f32 := m ((c : Thread nD τ).loc main_arg1)
abbrev qmArr (c : Dev nD) : FVec Ideal S16384x512 .f32 := m ((c : Thread nD τ).loc main_arg2)
abbrev qlArr (c : Dev nD) : FVec Ideal S16384x512 .f32 := m ((c : Thread nD τ).loc main_arg3)

/-- The summand of entry (R, d) of the argument arrays. -/
def entry (c : Dev nD) (R : Fin 16384) (d : Fin 512) : EReal :=
  Cert.KlSum.term (pmArr m c (ix2 R d)) (plArr m c (ix2 R d)) (qmArr m c (ix2 R d)) (qlArr m c (ix2 R d))

/-! ## A point's blocks are rows of the arrays -/

/-- Where the input windows' blocks sit: at point `t` block row `t`, block column 0, for each of the four. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Entry (r, d) of point `t`'s block of argument 0 is entry (1024 t + r, d) of the array. -/
theorem pm_apply (c : Dev nD) (t : Fin cfg0.N) (i : Fin 16) (hi : i.val = t.val) (r : Fin 1024) (d : Fin 512) :
    pmBlk m c t (ix2 r d) = pmArr m c (ix2 (Cert.KlSum.row i r) d) := by
  show iblk m c 0 t (ix2 r d) = _
  unfold iblk
  rw [View.read_apply]
  show m ((c : Thread nD τ).loc main_arg0) _ = m ((c : Thread nD τ).loc main_arg0) _
  congr 1
  funext a
  apply Fin.ext
  match a with
  | ⟨0, _⟩ =>
    show win0_0.index t 0 * 1024 + 1 * r.val = 1024 * i.val + r.val
    rw [(idx_facts t).1.1, hi]; omega
  | ⟨1, _⟩ =>
    show win0_0.index t 1 * 512 + 1 * d.val = d.val
    rw [(idx_facts t).1.2]; omega

/-- Entry (r, d) of point `t`'s block of argument 1 is entry (1024 t + r, d) of the array. -/
theorem pl_apply (c : Dev nD) (t : Fin cfg0.N) (i : Fin 16) (hi : i.val = t.val) (r : Fin 1024) (d : Fin 512) :
    plBlk m c t (ix2 r d) = plArr m c (ix2 (Cert.KlSum.row i r) d) := by
  show iblk m c 1 t (ix2 r d) = _
  unfold iblk
  rw [View.read_apply]
  show m ((c : Thread nD τ).loc main_arg1) _ = m ((c : Thread nD τ).loc main_arg1) _
  congr 1
  funext a
  apply Fin.ext
  match a with
  | ⟨0, _⟩ =>
    show win0_1.index t 0 * 1024 + 1 * r.val = 1024 * i.val + r.val
    rw [(idx_facts t).2.1.1, hi]; omega
  | ⟨1, _⟩ =>
    show win0_1.index t 1 * 512 + 1 * d.val = d.val
    rw [(idx_facts t).2.1.2]; omega

/-- Entry (r, d) of point `t`'s block of argument 2 is entry (1024 t + r, d) of the array. -/
theorem qm_apply (c : Dev nD) (t : Fin cfg0.N) (i : Fin 16) (hi : i.val = t.val) (r : Fin 1024) (d : Fin 512) :
    qmBlk m c t (ix2 r d) = qmArr m c (ix2 (Cert.KlSum.row i r) d) := by
  show iblk m c 2 t (ix2 r d) = _
  unfold iblk
  rw [View.read_apply]
  show m ((c : Thread nD τ).loc main_arg2) _ = m ((c : Thread nD τ).loc main_arg2) _
  congr 1
  funext a
  apply Fin.ext
  match a with
  | ⟨0, _⟩ =>
    show win0_2.index t 0 * 1024 + 1 * r.val = 1024 * i.val + r.val
    rw [(idx_facts t).2.2.1.1, hi]; omega
  | ⟨1, _⟩ =>
    show win0_2.index t 1 * 512 + 1 * d.val = d.val
    rw [(idx_facts t).2.2.1.2]; omega

/-- Entry (r, d) of point `t`'s block of argument 3 is entry (1024 t + r, d) of the array. -/
theorem ql_apply (c : Dev nD) (t : Fin cfg0.N) (i : Fin 16) (hi : i.val = t.val) (r : Fin 1024) (d : Fin 512) :
    qlBlk m c t (ix2 r d) = qlArr m c (ix2 (Cert.KlSum.row i r) d) := by
  show iblk m c 3 t (ix2 r d) = _
  unfold iblk
  rw [View.read_apply]
  show m ((c : Thread nD τ).loc main_arg3) _ = m ((c : Thread nD τ).loc main_arg3) _
  congr 1
  funext a
  apply Fin.ext
  match a with
  | ⟨0, _⟩ =>
    show win0_3.index t 0 * 1024 + 1 * r.val = 1024 * i.val + r.val
    rw [(idx_facts t).2.2.2.1, hi]; omega
  | ⟨1, _⟩ =>
    show win0_3.index t 1 * 512 + 1 * d.val = d.val
    rw [(idx_facts t).2.2.2.2]; omega

/-- So a tile's total is the total of its rows' summands in the arrays. -/
theorem tileSum_eq (c : Dev nD) (t : Fin cfg0.N) (i : Fin 16) (hi : i.val = t.val) :
    tileSum m c t = ∑ r : Fin 1024, ∑ d : Fin 512, entry m c (Cert.KlSum.row i r) d := by
  unfold tileSum entry
  simp only [fun r d => pm_apply m c t i hi r d, fun r d => pl_apply m c t i hi r d,
    fun r d => qm_apply m c t i hi r d, fun r d => ql_apply m c t i hi r d]

/-! ## The number the run leaves -/

/-- The mean of the halved row sums of the arrays' summands. -/
def value (c : Dev nD) : EReal := Cert.KlSum.mean (entry m c)

/-- The sum over all 16 points, scaled by 1/16384, is that mean. -/
theorem total_eq (c : Dev nD) (h : 15 < cfg0.N) :
    running m c 15 h * ((1 / 16384 : ℝ) : EReal) = value m c := by
  refine Eq.trans (congrArg (· * ((1 / 16384 : ℝ) : EReal)) ?_) (Cert.KlSum.tiles_eq_mean (entry m c))
  unfold running
  exact Finset.sum_congr rfl fun i _ =>
    congrArg (((1 / 2 : ℝ) : EReal) * ·) (tileSum_eq m c ⟨i.val, lt_of_lt_of_le i.isLt h⟩ i rfl)

/-- The output array, one entry, at that number. -/
abbrev outArr (c : Dev nD) : Buf (Elt Ideal) ((c : Thread nD τ).loc main_v0) := fun _ => value m c

/-- The one write-back, after the last point, writes it. -/
theorem flushed_eq (c : Dev nD) (t : Fin cfg0.N) (hf : (cfg0.win 4).flush t = true) :
    (dats m 0 c).flushed 4 t = ((cfg0.win 4).blk t).view.read (Elt Ideal) (outArr m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4]
  show (cfg0.win 4).cut (grid0.coords t0_15) ((outsAt0 m c 15 t0_15.isLt).1) = _
  rw [out_last m c t0_15.isLt, total_eq m c t0_15.isLt]
  rfl

/-- So the output array ends holding it: the last point's block is the whole array. -/
theorem final (c : Dev nD) : (dats m 0 c).arrAt 4 cfg0.N = outArr m c :=
  (dats m 0 c).arrAt_eq_of_cover 4 (outArr m c) (flushed_eq m c) fun i =>
    ⟨t0_15, (flush0_4 t0_15).mpr rfl, by
      show i ∈ ((View.whole main_v0).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t0_15 0 * win0_4.size 0 ≤ (i 0 : Nat)
          ∧ (i 0 : Nat) < win0_4.index t0_15 0 * win0_4.size 0 + win0_4.xsize (grid0.coords t0_15) 0
        rw [show win0_4.index t0_15 0 * win0_4.size 0 = 0 from by decide +kernel,
          show win0_4.xsize (grid0.coords t0_15) 0 = 1 from by decide +kernel]
        omega
      | ⟨1, _⟩ =>
        show win0_4.index t0_15 1 * win0_4.size 1 ≤ (i 1 : Nat)
          ∧ (i 1 : Nat) < win0_4.index t0_15 1 * win0_4.size 1 + win0_4.xsize (grid0.coords t0_15) 1
        rw [show win0_4.index t0_15 1 * win0_4.size 1 = 0 from by decide +kernel,
          show win0_4.xsize (grid0.coords t0_15) 1 = 1 from by decide +kernel]
        omega⟩

/-! ## The line after the region, and the run -/

/-- The scalar result: the one-entry array viewed as a scalar. -/
abbrev result (c : Dev nD) : Buf (Elt Ideal) ((c : Thread nD τ).loc main_v1) := fun _ => value m c

/-- After the region's one later line the result buffer holds the number. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = outArr m c :=
    (Pipeline.withArrays_arr spec0 launch0.win.arr_inj c _ _ 4).trans (final m c)
  rw [e]
  funext j
  rfl

/-- THE RUN: every weakly fair execution terminates with the scalar result at the mean of the halved row sums of the
    summands, and the four argument arrays as they were. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KlRun

end
-- ==== Proof.lean ====
/-
  The kernel and the reference compute one number: the mean, over 16384 rows, of one half of each row's sum of
      (ql - pl) + exp (-(ql - pl)) + (pm - qm)² · exp (-ql) - 1
  over its 512 lanes, for the means `pm`, `qm` and log-variances `pl`, `ql` of two families of Gaussians.

  The reference halves every row's sum, adds the rows and divides by 16384. The kernel walks the rows in 16 tiles of
  1024, keeps one accumulator — reset to zero at the first tile —, adds to it one half of each tile's total, and after
  the last tile multiplies it by 2⁻¹⁴. Over the extended reals the two agree for ANY inputs: a nonnegative real factor
  distributes over a finite sum whatever the summands, sums may be regrouped, and dividing by 16384 is multiplying by the
  real 1/16384 that the kernel's literal denotes (Proof/KlSum.lean). The kernel's side is read off its run point by
  point (Proof/KlPieces.lean, KlPayload.lean, KlChain.lean, KlRun.lean), the reference's off its operations
  (Proof/RefValue.lean). The idealization rewrote nothing, so the kernel and its idealization are one text.
-/
import proofs.«148379_j11879879543853_1_alg».proof.Defs
import proofs.«148379_j11879879543853_1_alg».proof.Proof.Gen.Kernel
import proofs.«148379_j11879879543853_1_alg».proof.Proof.Gen.Kernel.Frame
import proofs.«148379_j11879879543853_1_alg».proof.Proof.Gen.KernelIdeal
import proofs.«148379_j11879879543853_1_alg».proof.Proof.Gen.KernelIdeal.Frame
import proofs.«148379_j11879879543853_1_alg».proof.Proof.Gen.ReferenceIdeal
import proofs.«148379_j11879879543853_1_alg».proof.Proof.Gen.ReferenceIdeal.Run
import proofs.«148379_j11879879543853_1_alg».proof.Proof.Gen.Pre_finite_inputs
import proofs.«148379_j11879879543853_1_alg».proof.Proof.RefValue
import proofs.«148379_j11879879543853_1_alg».proof.Proof.KlRun
import Idealize.ShloMosaic.Adequacy
import Idealize.ShloMosaic.Init

noncomputable section

namespace Cert.Proof

open Idealize.ShloMosaic Idealize.SL.Sem

/-- The kernel runs and leaves its four arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the same scalar: the mean of the halved row sums of the summands
    (`Cert.KernelIdeal.KlRun.run` for the kernel; the reference's run read by `RefValue.result_eq`). -/
theorem algebraic : Cert.algebraic_KernelIdeal_ReferenceIdeal := by
  intro m ρ m' ρ' _ hagree
  refine ⟨fun c => Cert.KernelIdeal.KlRun.result m c, Cert.KernelIdeal.KlRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
